-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S512x4096 : Shape := ⟨2, ![512, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S16384x4096 .f32) (main_arg1 : FVec F S512x4096 .f32) (main_arg2 : FVec F S512x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S512x4096 .f32 := Host.absf main_arg2
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  main_v13
-- ==== Kernel.lean ====
abbrev S16384x4096 : Shape := ⟨2, ![16384, 4096]⟩
abbrev S512x4096 : Shape := ⟨2, ![512, 4096]⟩
abbrev S16384x512 : Shape := ⟨2, ![16384, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S512x4096, .f32⟩
  | .hbm, ⟨2, _⟩ => ⟨S512x4096, .f32⟩
  | .hbm, ⟨3, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  natLt_1_32 : 1 < 32
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x4096.size a
  hwx0_1 : ∀ i : grid0.Coords, EltTy.bits .f32 = 32 ∨ (Rect.block (s := S512x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x4096.size a
  hwx0_2 : ∀ i : grid0.Coords, EltTy.bits .f32 = 32 ∨ (Rect.block (s := S512x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S512x4096 : Shape := ⟨2, ![512, 4096]⟩
abbrev S16384x512 : Shape := ⟨2, ![16384, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S512x4096, .f32⟩
  | .hbm, ⟨2, _⟩ => ⟨S512x4096, .f32⟩
  | .hbm, ⟨3, _⟩ => ⟨S512x4096, .i1⟩
  | .hbm, ⟨4, _⟩ => ⟨S512x4096, .f32⟩
  | .hbm, ⟨5, _⟩ => ⟨S16384x512, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  dot_S16384x4096_S512x4096_S16384x512_1_1_0_0_n_n_wf : DotDims.WF S16384x4096 S512x4096 S16384x512 [1] [1] [0] [0] [] []

variable [Facts₀]

def dot_S16384x4096_S512x4096_S16384x512_1_1_0_0_n_n : DotDims S16384x4096 S512x4096 S16384x512 where
  lhsContracting := [1]
  rhsContracting := [1]
  lhsNonContracting := [0]
  rhsNonContracting := [0]
  lhsBatch := []
  rhsBatch := []
  wf := dot_S16384x4096_S512x4096_S16384x512_1_1_0_0_n_n_wf

class Facts : Prop extends Facts₀ where

variable [Facts]
-- ==== Proof.Pieces.lean ====
/-
  What the kernel body leaves behind at a grid point, as values.

  The body keeps a running [1024, 512] accumulator in a scratch buffer. At a point it
    * first overwrites the accumulator with zeros when the point is the first of its run of four (k = 0),
    * then replaces the accumulator `a` by `a + X · Bᵀ`, where `X` is the point's [1024, 1024] block of
      activations and `B` the [512, 1024] block of 0/1 weights made from the point's blocks of samples and
      probabilities,
    * and, when the point is the last of its run (k = 3), copies the accumulator into the output block.
  The update is one pure term of the loaded blocks (the payload `k0_pay2`), so in every case what the scratch
  holds afterwards is that term: over the zero block at a run's first point, over what the point before left
  elsewhere; and what the output block holds at a run's last point is the very same term, read back from the
  scratch after the update. All four statements hold at any float instance.
-/
import proofs.«143622_j42030549959312_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- First point of a run: the accumulator is reset to the zero block and then updated, so it ends at the update
    of the zero block. -/
theorem scratch_first (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x1024 .f32) (x1 : Vec F S512x1024 .f32) (x2 : Vec F S512x1024 .f32) :
    sout0_A_0 c i arg2 harg2 arg3 harg3 arg4 harg4 arg5 harg5 arg6 harg6 hc0 hc1 x0 x1 x2 = k0_pay2 x0 x2 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x512) hz, View.readCov_unit_zero (S := S1024x512) _ hz]
  simp only [View.readAt_eq_ld, harg2.read_unread, harg3.read_unread, harg4.read_unread,
    View.ld_unit_zero (S := S1024x1024) hz, View.ld_unit_zero (S := S512x1024) hz]

/-- A middle point of a run: the accumulator ends at the update of what the point before left. -/
theorem scratch_middle (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x1024 .f32) (x1 : Vec F S512x1024 .f32) (x2 : Vec F S512x1024 .f32) (xs0 : Vec F S1024x512 .f32) :
    sout0_B_0 c i arg2 harg2 arg3 harg3 arg4 harg4 arg5 harg5 arg6 harg6 hc0 hc1 x0 x1 x2 xs0 = k0_pay2 x0 x2 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S1024x1024) hz, View.ld_unit_zero (S := S512x1024) hz, View.ld_unit_zero (S := S1024x512) hz]

/-- Last point of a run: the accumulator again ends at the update of what the point before left, -/
theorem scratch_last (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1024 .f32) (x1 : Vec F S512x1024 .f32) (x2 : Vec F S512x1024 .f32) (xs0 : Vec F S1024x512 .f32) :
    sout0_C_0 c i arg2 harg2 arg3 harg3 arg4 harg4 arg5 harg5 arg6 harg6 hc0 hc1 x0 x1 x2 xs0 = k0_pay2 x0 x2 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S1024x1024) hz, View.ld_unit_zero (S := S512x1024) hz, View.ld_unit_zero (S := S1024x512) hz]

/-- and the output block is the accumulator read back after that update: the same term. -/
theorem out_last (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1024 .f32) (x1 : Vec F S512x1024 .f32) (x2 : Vec F S512x1024 .f32) (xs0 : Vec F S1024x512 .f32) :
    out0_C_3 c i arg2 harg2 arg3 harg3 arg4 harg4 arg5 harg5 arg6 harg6 hc0 hc1 x0 x1 x2 xs0 = k0_pay2 x0 x2 x1 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1024x512) _ hz]
  simp only [View.readAt_eq_ld, harg2.read_unread, harg3.read_unread, harg4.read_unread, harg6.read_unread,
    View.ld_unit_zero (S := S1024x1024) hz, View.ld_unit_zero (S := S512x1024) hz, View.ld_unit_zero (S := S1024x512) hz]

end Cert.KernelIdeal.Pieces

end
-- ==== Proof.LibRowRowDot.lean ====
/-
  A matrix product that contracts axis 1 of BOTH operands, read at an index.

  For `a : [n, k]` and `w : [m, k]` the product `a · wᵀ : [n, m]` at `(p, q)` is row `p` of `a` against row `q`
  of `w`: `∑ κ < k, a (p, κ) · w (q, κ)` — the form a weight stored (out_features, in_features) is multiplied
  in, with no transpose materialised. The dimension numbers enter only through one rank fact, one size fact and
  four axis facts, so the lemma is generic in the three sizes and serves any record that proves them. On the
  extended reals a change of float format is the identity, so the operands' formats are free.
-/
import Idealize.ShloMosaic.PureOps.Ideal
import Idealize.ShloMosaic.PureOps.Ideal.Laws
import Idealize.ShloMosaic.Lib.ValueIdx

noncomputable section

open scoped BigOperators

namespace Idealize.ShloMosaic.RowRowDot

open Idealize.ShloMosaic Idealize.ShloMosaic.ValueIdx

/-- An `[n, m]` matrix of extended reals, by index. -/
abbrev Mat (n m : Nat) : Type := (⟨2, ![n, m]⟩ : Shape).Idx → EReal

/-- Row `p` of `a` against row `q` of `w`. -/
def rowRow {n k m : Nat} (a : Mat n k) (w : Mat m k) (p : Fin n) (q : Fin m) : EReal :=
  ∑ κ : Fin k, a (ix2 p κ) * w (ix2 q κ)

/-- Dimension numbers of an `[n × k] · [m × k]ᵀ` product: one contracted axis of extent `k`, the left operand
    read at (row, κ), the right at (column, κ). -/
structure Dims {n k m : Nat} (d : DotDims ⟨2, ![n, k]⟩ ⟨2, ![m, k]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx), (d.rhsIdx i q 0).val = (i 1).val
  r1 : ∀ (i : (⟨2, ![n, m]⟩ : Shape).Idx) (q : d.contr.Idx) (h : 0 < d.contr.rank), (d.rhsIdx i q 1).val = (q ⟨0, h⟩).val

section
variable {n k m : Nat} {d : DotDims ⟨2, ![n, k]⟩ ⟨2, ![m, k]⟩ ⟨2, ![n, m]⟩}

/-- The contracted sum, re-indexed by the contracted axis's one coordinate. -/
theorem Dims.sum_eq (hd : Dims d) (a : Mat n k) (w : Mat m k) (j : (⟨2, ![n, m]⟩ : Shape).Idx) :
    ∑ q : d.contr.Idx, a (d.lhsIdx j q) * w (d.rhsIdx j q) = rowRow a w (j 0) (j 1) := by
  have h0 : 0 < d.contr.rank := by rw [hd.rank]; exact Nat.one_pos
  unfold rowRow
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 (j 1) κ := funext fun a => Fin.ext (by
    match a with
    | ⟨0, _⟩ => exact hd.r0 _ _
    | ⟨1, _⟩ => exact (hd.r1 _ _ h0).trans hk)
  rw [el, er] <;> rfl

/-- The matrix unit's product into a zero accumulator, at an index: row against row. -/
theorem matmul_zero_at {φ₁ φ₂ : FTy} (hd : Dims d) (prec : Option ContractPrecision) (a : FVec Ideal ⟨2, ![n, k]⟩ φ₁)
    (w : FVec Ideal ⟨2, ![m, k]⟩ φ₂) (j : (⟨2, ![n, m]⟩ : Shape).Idx) :
    FloatOps.matmul d prec a w (constant ⟨2, ![n, m]⟩ .f32 0x00000000#32) j = rowRow (fun i => a i) (fun i => w i) (j 0) (j 1) := by
  rw [Ideal.matmul_constant_zero_apply]
  exact hd.sum_eq (fun i => a i) (fun i => w i) j

/-- The host's `dot_general` with the same dimension numbers, at an index: the same sum. -/
theorem dotGeneral_at {φ₁ φ₂ : FTy} (hd : Dims d) (prec : Option ContractPrecision) (a : FVec Ideal ⟨2, ![n, k]⟩ φ₁)
    (w : FVec Ideal ⟨2, ![m, k]⟩ φ₂) (j : (⟨2, ![n, m]⟩ : Shape).Idx) :
    Host.dotGeneral d prec a w j = rowRow (fun i => a i) (fun i => w i) (j 0) (j 1) := by
  simp only [Host.dotGeneral]
  rw [Ideal.dotGeneral_apply]
  exact hd.sum_eq (fun i => a i) (fun i => w i) j

end

end Idealize.ShloMosaic.RowRowDot

end
-- ==== Proof.LibTileSum.lean ====
/-
  Sums taken tile by tile.

  A sum over the first `a * b` naturals is the sum, over `a` consecutive tiles of length `b`, of each tile's
  own sum: `∑ k < a·b, f k = ∑ s < a, ∑ j < b, f (b·s + j)`. Only associativity of `+` is used, so the law
  holds in any additive commutative monoid — in particular on the extended reals, where no finiteness is needed.
  The `Fin` form states the same for a sum over `Fin (a * b)` against a sum over `Fin a × Fin b` spelled as
  an iterated sum, which is how a contraction over a long axis meets the same contraction accumulated
  block by block.
-/
import Mathlib.Algebra.BigOperators.Group.Finset.Basic
import Mathlib.Algebra.BigOperators.Fin

namespace TileSum

open Finset

variable {β : Type*} [AddCommMonoid β]

/-- A sum over `range (a * b)` is the sum over the `a` tiles `[b·s, b·s + b)` of the tiles' sums. -/
theorem sum_range_mul (f : ℕ → β) (a b : ℕ) :
    ∑ k ∈ range (a * b), f k = ∑ s ∈ range a, ∑ j ∈ range b, f (b * s + j) := by
  induction a with
  | zero => simp
  | succ a ih =>
    rw [Nat.succ_mul, sum_range_add, ih, sum_range_succ, Nat.mul_comm a b]

/-- The same with the long sum over `Fin (a * b)` and the tiles over `Fin a` and `Fin b`: `g` is any
    function of the natural index that the two sides agree to read. -/
theorem sum_fin_mul (g : ℕ → β) (a b : ℕ) :
    ∑ k : Fin (a * b), g k.val = ∑ s : Fin a, ∑ j : Fin b, g (b * s.val + j.val) := by
  rw [Fin.sum_univ_eq_sum_range (fun k => g k) (a * b), sum_range_mul g a b,
    ← Fin.sum_univ_eq_sum_range (fun s => ∑ j ∈ range b, g (b * s + j)) a]
  refine Finset.sum_congr rfl fun s _ => ?_
  exact (Fin.sum_univ_eq_sum_range (fun j => g (b * s.val + j)) b).symm

/-- The tiles' sum written over `range a` (as a fold over grid points unrolls it) against the long sum over
    `Fin (a * b)`. -/
theorem sum_range_tiles_eq_sum_fin (g : ℕ → β) (a b : ℕ) :
    ∑ s ∈ range a, ∑ j : Fin b, g (b * s + j.val) = ∑ k : Fin (a * b), g k.val := by
  rw [Fin.sum_univ_eq_sum_range (fun k => g k) (a * b), sum_range_mul g a b]
  refine Finset.sum_congr rfl fun s _ => ?_
  exact Fin.sum_univ_eq_sum_range (fun j => g (b * s + j)) b

end TileSum
-- ==== Proof.Spec.lean ====
/-
  The binarised linear layer as ONE function of its three arrays, and the two laws the bridge needs.

  The layer multiplies the activations x : [16384, 4096] by a 0/1 weight drawn from the probabilities
  w : [512, 4096] with the uniform samples u : [512, 4096]: the weight at (o, κ) is 1 where u (o, κ) < w (o, κ)
  and 0 elsewhere, and the result at (b, o) is row b of x against row o of that weight,

      out (b, o) = ∑ κ < 4096, x (b, κ) · [u (o, κ) < w (o, κ)].

  Law 1 (the weight's two spellings). One program turns the comparison's bit into a float by reading the bit as an
  unsigned integer; the other first widens the bit to 32 bits with zeros and reads the word as a SIGNED integer.
  A word that is 0 or 1 has the same value under both readings.

  Law 2 (the contraction by tiles). The sum over 4096 columns is the sum, over four consecutive tiles of 1024
  columns, of each tile's sum. Only associativity and commutativity of + on the extended reals are used, so
  nothing here needs the entries to be finite.
-/
import Idealize.ShloMosaic.PureOps.Ideal
import Idealize.ShloMosaic.PureOps.Ideal.Laws
import Idealize.ShloMosaic.Lib.ValueIdx
import proofs.«143622_j42030549959312_1_alg».proof.Proof.LibRowRowDot
import proofs.«143622_j42030549959312_1_alg».proof.Proof.LibTileSum

noncomputable section

open scoped BigOperators

namespace Cert.BinLinear

open Idealize.ShloMosaic Idealize.ShloMosaic.ValueIdx Idealize.ShloMosaic.RowRowDot

/-! ## The weight -/

/-- The 0/1 weight: at each index the bit of `u < w`, read as a number. -/
def bit {n k : Nat} (u w : Mat n k) : Mat n k := fun i => (((Ideal.cmp .olt (u i) (w i)).toNat : ℝ) : EReal)

/-- A one-bit word widened with zeros to 32 bits has, read as a signed integer, the value of the bit. -/
theorem toInt_setWidth_bit : ∀ b : BitVec 1, (b.setWidth 32).toInt = (b.toNat : ℤ) := by decide

/-- Law 1: widening the comparison's bit and reading the word signed gives the weight. -/
theorem signed_wide_eq_bit {n k : Nat} (u w : Mat n k) (i : (⟨2, ![n, k]⟩ : Shape).Idx) :
    ((((Ideal.cmp .olt (u i) (w i)).setWidth 32).toInt : ℝ) : EReal) = bit u w i := by
  unfold bit
  rw [toInt_setWidth_bit, Int.cast_natCast]

/-! ## The layer -/

/-- The layer's result: row `b` of the activations against row `o` of the 0/1 weight. -/
def out (x : Mat 16384 4096) (w u : Mat 512 4096) : Mat 16384 512 :=
  fun j => rowRow x (bit u w) (j 0) (j 1)

/-! ## The contraction by tiles -/

/-- Column `κ`'s term of the contraction of row `p` of `a` with row `q` of `c`, as a function of the natural `κ`
    (zero past the last column, where it is never read). -/
def col (a : Mat 16384 4096) (c : Mat 512 4096) (p : Fin 16384) (q : Fin 512) : ℕ → EReal :=
  fun κ => if h : κ < 4096 then a (ix2 p ⟨κ, h⟩) * c (ix2 q ⟨κ, h⟩) else 0

/-- Law 2: the four tiles' sums, tile `s` over the columns `1024·s … 1024·s + 1023`, add up to the contraction over
    all 4096 columns. -/
theorem range_tiles_eq_rowRow (a : Mat 16384 4096) (c : Mat 512 4096) (p : Fin 16384) (q : Fin 512) :
    ∑ s ∈ Finset.range 4, ∑ j : Fin 1024, col a c p q (1024 * s + j.val) = rowRow a c p q := by
  rw [TileSum.sum_range_tiles_eq_sum_fin (col a c p q) 4 1024]
  unfold rowRow
  show ∑ κ : Fin 4096, col a c p q κ.val = _
  refine Finset.sum_congr rfl fun κ _ => ?_
  simp only [col, dif_pos κ.isLt]

end Cert.BinLinear

end
-- ==== Proof.Payload.lean ====
/-
  The accumulator's update, read at an index on the extended reals.

  The update term takes the point's block of activations `X : [1024, 1024]`, its blocks of samples `U` and
  probabilities `W : [512, 1024]`, and the accumulator `a : [1024, 512]`. On the extended reals a change of float
  format is the identity, the comparison's bit widened to a word and read as a signed integer is the 0/1 weight
  `[U < W]`, and the matrix unit's product into a zero accumulator contracts axis 1 of both operands, so at
  `(r, o)`

      update X U W a (r, o) = a (r, o) + ∑ q < 1024, X (r, q) · [U (o, q) < W (o, q)].

  The block a run's first point stores before updating is zero everywhere.
-/
import proofs.«143622_j42030549959312_1_alg».proof.Proof.Gen.KernelIdeal.Skeleton
import proofs.«143622_j42030549959312_1_alg».proof.Proof.Spec
import Idealize.ShloMosaic.Lib.Pipeline.Value

noncomputable section

namespace Cert.KernelIdeal.Payload

open Cert.KernelIdeal Cert.KernelIdeal.Gen Idealize.ShloMosaic Idealize.ShloMosaic.ValueIdx
open Idealize.ShloMosaic.RowRowDot Cert.BinLinear

/-! ## The block product's dimension numbers -/

theorem lhs_tile_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_tile_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_tile_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_tile_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The block product contracts axis 1 of both blocks: row against row. -/
theorem tile_dims : Dims dot_S1024x1024_S512x1024_S1024x512_1_1_0_0_n_n where
  rank := rfl
  size := fun _ => rfl
  l0 := lhs_tile_0
  l1 := fun i q _ => lhs_tile_1 i q
  r0 := rhs_tile_0
  r1 := fun i q _ => rhs_tile_1 i q

/-! ## The two payloads at an index -/

/-- The reset block is zero at every index. -/
theorem reset_at (j : S1024x512.Idx) : k0_pay1 (F := Ideal) j = 0 := by
  unfold k0_pay1
  rw [shapeCast_self]
  exact Ideal.ofBits_zero_f32

/-- The update at an index: the accumulator there plus row `r` of the activations' block against row `o` of the
    block of 0/1 weights. -/
theorem update_at (X : FVec Ideal S1024x1024 .f32) (U W : FVec Ideal S512x1024 .f32) (a : FVec Ideal S1024x512 .f32)
    (j : S1024x512.Idx) :
    k0_pay2 (F := Ideal) X U W a j = a j + rowRow (n := 1024) (k := 1024) (m := 512) X (bit (n := 512) (k := 1024) U W) (j 0) (j 1) := by
  unfold k0_pay2
  rw [shapeCast_self]
  show a j + FloatOps.matmul (F := Ideal) dot_S1024x1024_S512x1024_S1024x512_1_1_0_0_n_n none _ _ (constant S1024x512 .f32 0x00000000#32) j = _
  rw [matmul_zero_at tile_dims]
  have hb : (fun i => truncf (F := Ideal) .bf16 (sitofp (F := Ideal) .f32 (extui 32 (cmpf (F := Ideal) .olt U W) natLt_1_32)) bitsLt_bf16_f32 i)
      = bit (n := 512) (k := 1024) U W := funext fun i => signed_wide_eq_bit (n := 512) (k := 1024) U W i
  rw [hb]
  rfl

end Cert.KernelIdeal.Payload

end
-- ==== Proof.Fold.lean ====
/-
  The accumulator over a run of four grid points, on the extended reals.

  The grid's 64 points come in 16 runs of four: point `n` belongs to the row block `n / 4` and is step `n % 4` of
  its run. Step 0 resets the accumulator to zero before updating, steps 1, 2, 3 update what the step before left,
  and every update adds the point's own addend — row against row of the point's block of activations and its block
  of 0/1 weights. So after step 3 of a run the accumulator holds, at every index, zero plus the sum of the run's
  four addends; and the output block written at that step is the accumulator itself.
-/
import proofs.«143622_j42030549959312_1_alg».proof.Proof.Gen.KernelIdeal.Value
import proofs.«143622_j42030549959312_1_alg».proof.Proof.Pieces
import proofs.«143622_j42030549959312_1_alg».proof.Proof.Payload

noncomputable section

open scoped BigOperators

namespace Cert.KernelIdeal.Layer

open Cert.KernelIdeal Cert.KernelIdeal.Gen Cert.KernelIdeal.Value Idealize.ShloMosaic Idealize.ShloMosaic.TcCoe Idealize.SL.Sem
open Idealize.ShloMosaic.ValueIdx Idealize.ShloMosaic.RowRowDot Cert.BinLinear
open Cert.KernelIdeal.Pieces Cert.KernelIdeal.Payload

variable (m : (ℓ : Loc nD τ sig) → Buf (Elt Ideal) ℓ)

/-- The blocks a point reads: activations, probabilities, samples. -/
abbrev xblk (c : Dev nD) (t : Fin cfg0.N) : FVec Ideal S1024x1024 .f32 := iblk m c 0 t
abbrev wblk (c : Dev nD) (t : Fin cfg0.N) : FVec Ideal S512x1024 .f32 := iblk m c 1 t
abbrev ublk (c : Dev nD) (t : Fin cfg0.N) : FVec Ideal S512x1024 .f32 := iblk m c 2 t

/-- Point `n`'s addend at `(r, o)`: row `r` of its block of activations against row `o` of its block of 0/1 weights
    (zero past the grid, where it is never read). -/
def addend (c : Dev nD) (n : ℕ) : S1024x512.Idx → EReal := fun j =>
  if h : n < cfg0.N then
    rowRow (n := 1024) (k := 1024) (m := 512) (xblk m c ⟨n, h⟩) (bit (n := 512) (k := 1024) (ublk m c ⟨n, h⟩) (wblk m c ⟨n, h⟩)) (j 0) (j 1)
  else 0

/-- Step 0 of a run leaves zero plus the point's addend, whatever the accumulator held. -/
theorem step_first (c : Dev nD) (n : ℕ) (h : n < cfg0.N) (h0 : n % 4 = 0) (acc : Vec Ideal S1024x512 .f32) (j : S1024x512.Idx) :
    scAt0_0 m c n h acc j = 0 + addend m c n j := by
  have h1 : ¬n % 4 = 3 := by omega
  unfold scAt0_0
  rw [dif_pos h0, dif_neg h1]
  refine (congrFun (scratch_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (xblk m c ⟨n, h⟩) (wblk m c ⟨n, h⟩) (ublk m c ⟨n, h⟩)) j).trans ?_
  refine (update_at (xblk m c ⟨n, h⟩) (ublk m c ⟨n, h⟩) (wblk m c ⟨n, h⟩) _ j).trans ?_
  rw [reset_at]
  unfold addend
  rw [dif_pos h]

/-- Steps 1, 2, 3 of a run add the point's addend to what the step before left. -/
theorem step_later (c : Dev nD) (n : ℕ) (h : n < cfg0.N) (h0 : ¬n % 4 = 0) (acc : Vec Ideal S1024x512 .f32) (j : S1024x512.Idx) :
    scAt0_0 m c n h acc j = acc j + addend m c n j := by
  unfold scAt0_0
  by_cases h1 : n % 4 = 3
  · rw [dif_neg h0, dif_pos h1]
    refine (congrFun (scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (xblk m c ⟨n, h⟩) (wblk m c ⟨n, h⟩) (ublk m c ⟨n, h⟩) acc) j).trans ?_
    refine (update_at (xblk m c ⟨n, h⟩) (ublk m c ⟨n, h⟩) (wblk m c ⟨n, h⟩) acc j).trans ?_
    unfold addend
    rw [dif_pos h]
  · rw [dif_neg h0, dif_neg h1]
    refine (congrFun (scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (xblk m c ⟨n, h⟩) (wblk m c ⟨n, h⟩) (ublk m c ⟨n, h⟩) acc) j).trans ?_
    refine (update_at (xblk m c ⟨n, h⟩) (ublk m c ⟨n, h⟩) (wblk m c ⟨n, h⟩) acc j).trans ?_
    unfold addend
    rw [dif_pos h]

/-- After step 3 of a run the accumulator is zero plus the run's four addends. -/
theorem scratch_run_end (c : Dev nD) (t : Fin cfg0.N) (h3 : t.val % 4 = 3) (j : S1024x512.Idx) :
    (outsAt0 m c t.val t.isLt).2 j = 0 + ∑ s ∈ Finset.range 4, addend m c (4 * (t.val / 4) + s) j := by
  have hN : cfg0.N = 64 := N_0
  rw [soutsAt0_0_eq]
  have key := Pipeline.accAt_add_apply (ι := S1024x512.Idx) (β := EReal) (N := cfg0.N)
    (fun n h => scAt0_0 m c n h (VS0_0.read (Elt Ideal) VS0_0.junk)) (scAt0_0 m c) (fun _ => 0) (addend m c) (4 * (t.val / 4)) 3
    (fun h i => step_first m c _ h (by omega) _ i)
    (fun n h acc i hlt hle => step_later m c n h (by omega) acc i)
    (t.val % 4) (by omega) (by have := t.isLt; omega) j
  refine key.trans ?_
  have h4 : t.val % 4 + 1 = 4 := by omega
  rw [h4]

/-- The output block written at step 3 of a run is the accumulator after that step. -/
theorem out_eq_scratch (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  exact (out_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans
    (scratch_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).symm

end Cert.KernelIdeal.Layer

end
-- ==== Proof.Blocks.lean ====
/-
  From blocks to the whole result array.

  Point `t` of the 16 × 4 grid reads block `(t / 4, t % 4)` of the activations, block `(0, t % 4)` of the
  probabilities and of the samples, and works on block `(t / 4, 0)` of the result, which is written back at the
  points with `t % 4 = 3` only. Read through these index maps, a point's addend at `(r, o)` is tile `t % 4` of
  the contraction of row `1024·(t / 4) + r` of the activations with row `o` of the 0/1 weight. The block written
  back at the end of run `t / 4` is therefore zero plus the four tiles of that contraction, which is the whole
  contraction (the tile law): the block of the layer `out`. The sixteen written blocks tile the result array, so the
  array ends at `out` of the three argument arrays.
-/
import proofs.«143622_j42030549959312_1_alg».proof.Proof.Fold

noncomputable section

open scoped BigOperators

namespace Cert.KernelIdeal.Layer

open Cert.KernelIdeal Cert.KernelIdeal.Gen Cert.KernelIdeal.Value Idealize.ShloMosaic Idealize.ShloMosaic.TcCoe Idealize.SL.Sem
open Idealize.ShloMosaic.ValueIdx Idealize.ShloMosaic.RowRowDot Cert.BinLinear
open Idealize.ShloMosaic.Pipeline (Dat)

variable (m : (ℓ : Loc nD τ sig) → Buf (Elt Ideal) ℓ) (ρ : Dev nD → PrngReg)

/-- The three argument arrays as the region finds them. -/
abbrev xarr (c : Dev nD) : FVec Ideal S16384x4096 .f32 := V m c main_arg0
abbrev warr (c : Dev nD) : FVec Ideal S512x4096 .f32 := V m c main_arg1
abbrev uarr (c : Dev nD) : FVec Ideal S512x4096 .f32 := V m c main_arg2

/-- The printed index maps in closed form, decided over the grid. -/
theorem idx_facts : ∀ t : Fin cfg0.N, win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 2) = t.val / 4 ∧ win0_3.index t (1 : Fin 2) = 0 :=
  (by decide +kernel : ∀ t : Fin grid0.N, _)

/-! ## The input blocks read at an index of their arrays -/

/-- The activations' block at `(r, q)` is the array at `(1024·(t / 4) + r, 1024·(t % 4) + q)`. -/
theorem xblk_at (c : Dev nD) (t : Fin cfg0.N) (r q : Fin 1024) (R : Fin 16384) (K : Fin 4096)
    (hR : R.val = 1024 * (t.val / 4) + r.val) (hK : K.val = 1024 * (t.val % 4) + q.val) :
    xblk m c t (ix2 r q) = xarr m c (ix2 R K) := by
  obtain ⟨e0, e1, -⟩ := idx_facts t
  show iblk m c 0 t (ix2 r q) = _
  unfold iblk
  rw [View.read_apply]
  show V m c main_arg0 _ = V m c main_arg0 _
  congr 1
  funext a
  apply Fin.ext
  match a with
  | ⟨0, _⟩ => show win0_0.index t (0 : Fin 2) * 1024 + 1 * r.val = R.val; omega
  | ⟨1, _⟩ => show win0_0.index t (1 : Fin 2) * 1024 + 1 * q.val = K.val; omega

/-- The probabilities' block at `(o, q)` is the array at `(o, 1024·(t % 4) + q)`. -/
theorem wblk_at (c : Dev nD) (t : Fin cfg0.N) (o : Fin 512) (q : Fin 1024) (K : Fin 4096)
    (hK : K.val = 1024 * (t.val % 4) + q.val) :
    wblk m c t (ix2 o q) = warr m c (ix2 o K) := by
  obtain ⟨-, -, e2, e3, -⟩ := idx_facts t
  show iblk m c 1 t (ix2 o q) = _
  unfold iblk
  rw [View.read_apply]
  show V m c main_arg1 _ = V m c main_arg1 _
  congr 1
  funext a
  apply Fin.ext
  match a with
  | ⟨0, _⟩ => show win0_1.index t (0 : Fin 2) * 512 + 1 * o.val = o.val; omega
  | ⟨1, _⟩ => show win0_1.index t (1 : Fin 2) * 1024 + 1 * q.val = K.val; omega

/-- The samples' block at `(o, q)` is the array at `(o, 1024·(t % 4) + q)`. -/
theorem ublk_at (c : Dev nD) (t : Fin cfg0.N) (o : Fin 512) (q : Fin 1024) (K : Fin 4096)
    (hK : K.val = 1024 * (t.val % 4) + q.val) :
    ublk m c t (ix2 o q) = uarr m c (ix2 o K) := by
  obtain ⟨-, -, -, -, e4, e5, -⟩ := idx_facts t
  show iblk m c 2 t (ix2 o q) = _
  unfold iblk
  rw [View.read_apply]
  show V m c main_arg2 _ = V m c main_arg2 _
  congr 1
  funext a
  apply Fin.ext
  match a with
  | ⟨0, _⟩ => show win0_2.index t (0 : Fin 2) * 512 + 1 * o.val = o.val; omega
  | ⟨1, _⟩ => show win0_2.index t (1 : Fin 2) * 1024 + 1 * q.val = K.val; omega

/-! ## A point's addend is one tile of the layer's contraction -/

/-- Point `n`, step `s` of the run of row block `n / 4`: its addend at `(r, o)` is tile `s` of the contraction of
    row `R = 1024·(n / 4) + r` of the activations with row `o` of the 0/1 weight. -/
theorem addend_at (c : Dev nD) (n : ℕ) (hn : n < cfg0.N) (s : ℕ) (hs : n % 4 = s) (r : Fin 1024) (o : Fin 512)
    (R : Fin 16384) (hR : R.val = 1024 * (n / 4) + r.val) :
    addend m c n (ix2 r o)
      = ∑ j : Fin 1024, col (xarr m c) (bit (n := 512) (k := 4096) (uarr m c) (warr m c)) R o (1024 * s + j.val) := by
  unfold addend
  rw [dif_pos hn]
  unfold rowRow
  refine Finset.sum_congr rfl fun j _ => ?_
  have hlt : 1024 * s + j.val < 4096 := by have := j.isLt; omega
  have hK : (⟨1024 * s + j.val, hlt⟩ : Fin 4096).val = 1024 * ((⟨n, hn⟩ : Fin cfg0.N).val % 4) + j.val := by
    show 1024 * s + j.val = 1024 * (n % 4) + j.val; rw [hs]
  show xblk m c ⟨n, hn⟩ (ix2 r j) * bit (n := 512) (k := 1024) (ublk m c ⟨n, hn⟩) (wblk m c ⟨n, hn⟩) (ix2 o j) = _
  unfold col bit
  rw [dif_pos hlt, xblk_at m c ⟨n, hn⟩ r j R ⟨1024 * s + j.val, hlt⟩ hR hK,
    ublk_at m c ⟨n, hn⟩ o j ⟨1024 * s + j.val, hlt⟩ hK, wblk_at m c ⟨n, hn⟩ o j ⟨1024 * s + j.val, hlt⟩ hK]

/-! ## What a flushing point writes back, the cover, and the array -/

/-- The layer of the three argument arrays. -/
abbrev result (c : Dev nD) : Buf (Elt Ideal) ((c : Thread nD τ).loc main_v0) :=
  out (xarr m c) (warr m c) (uarr m c)

/-- The block written back at the last point of a run is the block of the layer. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : cfg0.N = 64 := N_0
  have hT := t.isLt
  obtain ⟨-, -, -, -, -, -, e6, e7⟩ := idx_facts t
  rw [flushed3]
  funext y
  obtain ⟨r, o, rfl⟩ : ∃ (r : Fin 1024) (o : Fin 512), y = ix2 r o := ⟨y 0, y 1, eq_ix2 y⟩
  rw [View.read_apply]
  show (outsAt0 m c t.val t.isLt).1 (ix2 r o) = result m c _
  rw [out_eq_scratch m c t h3, scratch_run_end m c t h3, zero_add]
  have hRlt : 1024 * (t.val / 4) + r.val < 16384 := by have := r.isLt; omega
  have hemb : ((cfg0.win 3).blk t).view.emb (ix2 r o) = ix2 (⟨1024 * (t.val / 4) + r.val, hRlt⟩ : Fin 16384) o :=
    funext fun a => Fin.ext (by
      match a with
      | ⟨0, _⟩ => show win0_3.index t (0 : Fin 2) * 1024 + 1 * r.val = 1024 * (t.val / 4) + r.val; omega
      | ⟨1, _⟩ => show win0_3.index t (1 : Fin 2) * 512 + 1 * o.val = o.val; omega)
  rw [hemb]
  show _ = rowRow (xarr m c) (bit (uarr m c) (warr m c)) (⟨1024 * (t.val / 4) + r.val, hRlt⟩ : Fin 16384) o
  rw [← range_tiles_eq_rowRow]
  refine Finset.sum_congr rfl fun s hs => ?_
  have hs4 : s < 4 := Finset.mem_range.mp hs
  exact addend_at m c (4 * (t.val / 4) + s) (by omega) s (by omega) r o (⟨1024 * (t.val / 4) + r.val, hRlt⟩ : Fin 16384)
    (by show 1024 * (t.val / 4) + r.val = 1024 * ((4 * (t.val / 4) + s) / 4) + r.val; omega)

/-- Every index of the result array lies in the block some run's last point writes back. -/
theorem cover (c : Dev nD) (i : S16384x512.Idx) :
    ∃ t : Fin cfg0.N, (cfg0.win 3).flush t = true ∧ i ∈ ((cfg0.win 3).blk t).view.set := by
  have hN : cfg0.N = 64 := N_0
  have h0 : (i 0).val < 16384 := (i 0).isLt
  have h1 : (i 1).val < 512 := (i 1).isLt
  have hlt : 4 * ((i 0).val / 1024) + 3 < cfg0.N := by omega
  refine ⟨⟨4 * ((i 0).val / 1024) + 3, hlt⟩, (flush0_3 _).mpr (by show (4 * ((i 0).val / 1024) + 3) % 4 = 3; omega), ?_⟩
  obtain ⟨-, -, -, -, -, -, e6, e7⟩ := idx_facts ⟨4 * ((i 0).val / 1024) + 3, hlt⟩
  have e6' : win0_3.index ⟨4 * ((i 0).val / 1024) + 3, hlt⟩ (0 : Fin 2) = (i 0).val / 1024 := by
    rw [e6]; show (4 * ((i 0).val / 1024) + 3) / 4 = _; omega
  show i ∈ ((View.whole main_v0).slice (win0_3.rect ⟨4 * ((i 0).val / 1024) + 3, hlt⟩)).set
  rw [View.set_slice_whole, Rect.mem_set_unit]
  intro a
  match a with
  | ⟨0, _⟩ =>
    show win0_3.index ⟨4 * ((i 0).val / 1024) + 3, hlt⟩ (0 : Fin 2) * 1024 ≤ (i 0).val ∧ (i 0).val < win0_3.index ⟨4 * ((i 0).val / 1024) + 3, hlt⟩ (0 : Fin 2) * 1024 + 1024
    rw [e6']; omega
  | ⟨1, _⟩ =>
    show win0_3.index ⟨4 * ((i 0).val / 1024) + 3, hlt⟩ (1 : Fin 2) * 512 ≤ (i 1).val ∧ (i 1).val < win0_3.index ⟨4 * ((i 0).val / 1024) + 3, hlt⟩ (1 : Fin 2) * 512 + 512
    rw [e7]; omega

/-- The result array after the run is the layer of the argument arrays. -/
theorem final (c : Dev nD) : (dats m 0 c).arrAt 3 cfg0.N = result m c :=
  (dats m 0 c).arrAt_eq_of_cover 3 (result m c) (flushed_eq m c) (cover c)

/-- The kernel's run: the result array at the layer of the arguments, the arguments unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Layer

end
-- ==== Proof.Ref.lean ====
/-
  The reference computes the layer.

  The reference compares the samples with the probabilities, turns the bit into a float by reading it as an unsigned
  integer — the 0/1 weight — and contracts axis 1 of the activations with axis 1 of the weight. At an index
  `(b, o)` that is row `b` of the activations against row `o` of the weight: the layer `out`.
-/
import proofs.«143622_j42030549959312_1_alg».proof.Proof.Gen.ReferenceIdeal.Read
import proofs.«143622_j42030549959312_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Idealize.ShloMosaic.RowRowDot Cert.BinLinear

/-- The left operand's index at output index `i` and column `κ` is `(i 0, κ)`. -/
theorem lidx_eq (i : S16384x512.Idx) (κ : Fin 4096) : lidx_main_v2 i κ = ix2 (i 0) κ :=
  funext fun a => Fin.ext (by match a with | ⟨0, _⟩ => rfl | ⟨1, _⟩ => rfl)

/-- The right operand's index there is `(i 1, κ)`. -/
theorem ridx_eq (i : S16384x512.Idx) (κ : Fin 4096) : ridx_main_v2 i κ = ix2 (i 1) κ :=
  funext fun a => Fin.ext (by match a with | ⟨0, _⟩ => rfl | ⟨1, _⟩ => rfl)

/-- The reference's result term is the layer of the three arrays. -/
theorem result_eq (x : FVec Ideal S16384x4096 .f32) (w u : FVec Ideal S512x4096 .f32) :
    Host.dotGeneral dot_S16384x4096_S512x4096_S16384x512_1_1_0_0_n_n none x (uitofp (F := Ideal) .f32 (cmpf (F := Ideal) .olt u w))
      = out x w u := by
  rw [val_main_v2_eq]
  funext i
  rw [val_main_v2_apply]
  unfold out rowRow
  refine Finset.sum_congr rfl fun κ _ => ?_
  rw [lidx_eq, ridx_eq]
  rfl

end Cert.ReferenceIdeal.RefValue

end
-- ==== Proof.lean ====
/-
  A binarised linear layer: `x @ ((u < w) as 0/1).T` for activations x : [16384, 4096] and probabilities w and
  uniform samples u : [512, 4096].

  Both programs compute, at `(b, o)`,

      out (b, o) = ∑ κ < 4096, x (b, κ) · [u (o, κ) < w (o, κ)]

  on the extended reals. The reference does it in one contraction over axis 1 of both operands. The kernel walks a
  16 × 4 grid: for each block of 1024 rows it keeps a [1024, 512] accumulator, set to zero at the first of four
  steps, increased at step k by the contraction over the columns `1024·k … 1024·k + 1023`, and written out after
  the fourth. The two agree because
    * the 0/1 weight has the same value whether the comparison's bit is read as an unsigned integer or is first
      widened with zeros and read signed, and a change of float format is the identity on the extended reals
      (Spec.lean, Payload.lean);
    * a sum over 4096 columns is the sum of its four consecutive tiles of 1024 (Spec.lean), which needs only that
      + is associative and commutative — no finiteness of the entries is used.
  Pieces.lean reads what the body leaves at a point as values, Fold.lean adds up a run of four points, Blocks.lean
  goes from the written blocks to the whole result array, Ref.lean reads the reference's term as `out`.
  The idealized kernel is the kernel's own text read on the extended reals, so nothing is owed for `preserves`.
-/
import proofs.«143622_j42030549959312_1_alg».proof.Defs
import proofs.«143622_j42030549959312_1_alg».proof.Proof.Gen.Kernel
import proofs.«143622_j42030549959312_1_alg».proof.Proof.Gen.Kernel.Skeleton
import proofs.«143622_j42030549959312_1_alg».proof.Proof.Gen.Kernel.Launch
import proofs.«143622_j42030549959312_1_alg».proof.Proof.Gen.Kernel.Points
import proofs.«143622_j42030549959312_1_alg».proof.Proof.Gen.Kernel.Frame
import proofs.«143622_j42030549959312_1_alg».proof.Proof.Gen.KernelIdeal
import proofs.«143622_j42030549959312_1_alg».proof.Proof.Gen.KernelIdeal.Skeleton
import proofs.«143622_j42030549959312_1_alg».proof.Proof.Gen.KernelIdeal.Launch
import proofs.«143622_j42030549959312_1_alg».proof.Proof.Gen.KernelIdeal.Points
import proofs.«143622_j42030549959312_1_alg».proof.Proof.Gen.KernelIdeal.Frame
import proofs.«143622_j42030549959312_1_alg».proof.Proof.Gen.ReferenceIdeal
import proofs.«143622_j42030549959312_1_alg».proof.Proof.Gen.KernelIdeal.Value
import proofs.«143622_j42030549959312_1_alg».proof.Proof.Gen.ReferenceIdeal.Run
import proofs.«143622_j42030549959312_1_alg».proof.Proof.Gen.ReferenceIdeal.Read
import proofs.«143622_j42030549959312_1_alg».proof.Proof.Gen.Pre_finite_inputs
import proofs.«143622_j42030549959312_1_alg».proof.Proof.Blocks
import proofs.«143622_j42030549959312_1_alg».proof.Proof.Ref
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer `out` of the three argument arrays in their result. -/
theorem algebraic : Cert.algebraic_KernelIdeal_ReferenceIdeal := by
  intro m ρ m' ρ' _ hagree
  refine ⟨fun c => Cert.BinLinear.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
